-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S64x40 1) : IVec S_ 1 :=
  let main_c_5 : IVec S_ 1 := constantI S_ 1 1#1
  let main_v17 : IVec S_ 1 := (fun x v => Host.reduce IntOp.andi x v reducesTo_S64x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x64 .f32) (main_arg3 : FVec F S64 .f32) (main_arg4 : FVec F S64x40 .f32) (main_arg5 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x40 .f32 := Host.absf main_arg4
  let main_cst_4 : FVec F S_ .f32 := constant S_ .f32 0x7F800000#32
  let main_v15 : FVec F S64x40 .f32 := broadcastInDim S64x40 ![] bcast_S_S64x40 main_cst_4
  let main_v16 : IVec S64x40 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x64 : Shape := ⟨2, ![100000, 64]⟩
abbrev S10000x128 : Shape := ⟨2, ![10000, 128]⟩
abbrev S10000x64 : Shape := ⟨2, ![10000, 64]⟩
abbrev S1600000x64 : Shape := ⟨2, ![1600000, 64]⟩
abbrev S100000x1 : Shape := ⟨2, ![100000, 1]⟩
abbrev S1x64 : Shape := ⟨2, ![1, 64]⟩
abbrev S100000x40 : Shape := ⟨2, ![100000, 40]⟩
abbrev S10000x40 : Shape := ⟨2, ![10000, 40]⟩
abbrev S1600000x40 : Shape := ⟨2, ![1600000, 40]⟩
abbrev S1x40 : Shape := ⟨2, ![1, 40]⟩

abbrev nBuf : Space → Nat
  | .hbm => 110
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x40, .f32⟩
  | .hbm, ⟨5, _⟩ => ⟨S40, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S100000, .f32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S_, .f32⟩
  | .hbm, ⟨21, _⟩ => ⟨S1600000, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000, .f32⟩
  | .hbm, ⟨42, _⟩ => ⟨S1600000, .f32⟩
  | .hbm, ⟨43, _⟩ => ⟨S100000, .f32⟩
  | .hbm, ⟨44, _⟩ => ⟨S100000x64, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x64, .f32⟩
  | .hbm, ⟨54, _⟩ => ⟨S1600000x1, .f32⟩
  | .hbm, ⟨55, _⟩ => ⟨S1600000x64, .f32⟩
  | .hbm, ⟨56, _⟩ => ⟨S1600000x64, .f32⟩
  | .hbm, ⟨57, _⟩ => ⟨S_, .f32⟩
  | .hbm, ⟨58, _⟩ => ⟨S100000x64, .f32⟩
  | .hbm, ⟨59, _⟩ => ⟨S1600000x1, .i32⟩
  | .hbm, ⟨60, _⟩ => ⟨S100000x64, .f32⟩
  | .hbm, ⟨61, _⟩ => ⟨S100000x1, .f32⟩
  | .hbm, ⟨62, _⟩ => ⟨S100000x64, .f32⟩
  | .hbm, ⟨63, _⟩ => ⟨S100000x64, .f32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S100000x64, .f32⟩
  | .hbm, ⟨68, _⟩ => ⟨S_, .f32⟩
  | .hbm, ⟨69, _⟩ => ⟨S100000x64, .f32⟩
  | .hbm, ⟨70, _⟩ => ⟨S100000x64, .f32⟩
  | .hbm, ⟨71, _⟩ => ⟨S100000x40, .f32⟩
  | .hbm, ⟨72, _⟩ => ⟨S_, .i32⟩
  | .hbm, ⟨73, _⟩ => ⟨S1600000, .i32⟩
  | .hbm, ⟨74, _⟩ => ⟨S1600000, .i1⟩
  | .hbm, ⟨75, _⟩ => ⟨S_, .i32⟩
  | .hbm, ⟨76, _⟩ => ⟨S1600000, .i32⟩
  | .hbm, ⟨77, _⟩ => ⟨S1600000, .i32⟩
  | .hbm, ⟨78, _⟩ => ⟨S1600000, .i32⟩
  | .hbm, ⟨79, _⟩ => ⟨S1600000x1, .i32⟩
  | .hbm, ⟨80, _⟩ => ⟨S1600000x40, .f32⟩
  | .hbm, ⟨81, _⟩ => ⟨S1600000x1, .f32⟩
  | .hbm, ⟨82, _⟩ => ⟨S1600000x40, .f32⟩
  | .hbm, ⟨83, _⟩ => ⟨S1600000x40, .f32⟩
  | .hbm, ⟨84, _⟩ => ⟨S_, .f32⟩
  | .hbm, ⟨85, _⟩ => ⟨S100000x40, .f32⟩
  | .hbm, ⟨86, _⟩ => ⟨S1600000x1, .i32⟩
  | .hbm, ⟨87, _⟩ => ⟨S100000x40, .f32⟩
  | .hbm, ⟨88, _⟩ => ⟨S100000x1, .f32⟩
  | .hbm, ⟨89, _⟩ => ⟨S100000x40, .f32⟩
  | .hbm, ⟨90, _⟩ => ⟨S100000x40, .f32⟩
  | .hbm, ⟨91, _⟩ => ⟨S100000x40, .f32⟩
  | .hbm, ⟨92, _⟩ => ⟨S1x40, .f32⟩
  | .hbm, ⟨93, _⟩ => ⟨S100000x40, .f32⟩
  | .hbm, ⟨94, _⟩ => ⟨S100000x40, .f32⟩
  | .hbm, ⟨95, _⟩ => ⟨S_, .f32⟩
  | .hbm, ⟨96, _⟩ => ⟨S100000, .f32⟩
  | .hbm, ⟨97, _⟩ => ⟨S_, .f32⟩
  | .hbm, ⟨98, _⟩ => ⟨S100000, .f32⟩
  | .hbm, ⟨99, _⟩ => ⟨S100000, .f32⟩
  | .hbm, ⟨100, _⟩ => ⟨S100000x1, .f32⟩
  | .hbm, ⟨101, _⟩ => ⟨S100000x40, .f32⟩
  | .hbm, ⟨102, _⟩ => ⟨S100000x40, .f32⟩
  | .hbm, ⟨103, _⟩ => ⟨S100000x40, .f32⟩
  | .hbm, ⟨104, _⟩ => ⟨S_, .f32⟩
  | .hbm, ⟨105, _⟩ => ⟨S100000, .f32⟩
  | .hbm, ⟨106, _⟩ => ⟨S100000x1, .f32⟩
  | .hbm, ⟨107, _⟩ => ⟨S100000x1, .f32⟩
  | .hbm, ⟨108, _⟩ => ⟨S100000x40, .f32⟩
  | .hbm, ⟨109, _⟩ => ⟨S100000x40, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S64x40, .f32⟩
  | .local _ .vmem, ⟨8, _⟩ => ⟨S10000x40, .f32⟩
  | .local _ .vmem, ⟨9, _⟩ => ⟨S10000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_c_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_c_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_call0_cst : Ref sig .tc := ⟨.hbm, 68, rfl⟩
abbrev main_call0_v0 : Ref sig .tc := ⟨.hbm, 69, rfl⟩
abbrev main_v51 : Ref sig .tc := ⟨.hbm, 70, rfl⟩
abbrev main_v52 : Ref sig .tc := ⟨.hbm, 71, rfl⟩
abbrev main_c_9 : Ref sig .tc := ⟨.hbm, 72, rfl⟩
abbrev main_v53 : Ref sig .tc := ⟨.hbm, 73, rfl⟩
abbrev main_v54 : Ref sig .tc := ⟨.hbm, 74, rfl⟩
abbrev main_c_10 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_11 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_call1_cst : Ref sig .tc := ⟨.hbm, 95, rfl⟩
abbrev main_call1_v0 : Ref sig .tc := ⟨.hbm, 96, rfl⟩
abbrev main_call1_cst_0 : Ref sig .tc := ⟨.hbm, 97, rfl⟩
abbrev main_call1_v1 : Ref sig .tc := ⟨.hbm, 98, rfl⟩
abbrev main_call1_v2 : Ref sig .tc := ⟨.hbm, 99, rfl⟩
abbrev main_call1_v3 : Ref sig .tc := ⟨.hbm, 100, rfl⟩
abbrev main_call1_v4 : Ref sig .tc := ⟨.hbm, 101, rfl⟩
abbrev main_call1_v5 : Ref sig .tc := ⟨.hbm, 102, rfl⟩
abbrev main_call1_v6 : Ref sig .tc := ⟨.hbm, 103, rfl⟩
abbrev main_call1_cst_1 : Ref sig .tc := ⟨.hbm, 104, rfl⟩
abbrev main_call1_v7 : Ref sig .tc := ⟨.hbm, 105, rfl⟩
abbrev main_call1_v8 : Ref sig .tc := ⟨.hbm, 106, rfl⟩
abbrev main_call1_v9 : Ref sig .tc := ⟨.hbm, 107, rfl⟩
abbrev main_call1_v10 : Ref sig .tc := ⟨.hbm, 108, rfl⟩
abbrev main_v73 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x40 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x40 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  inb_S10000x128_S10000x128_0_0 : ∀ a, (![0, 0] : Fin 2 → Nat) a + S10000x128.size a ≤ S10000x128.size a
  h_S10000x128 : 0 < S10000x128.numel
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S10000x64_S10000x64 : S10000x64.ShapeCasts S10000x64
  inb_S64x40_S64x40_0_0 : ∀ a, (![0, 0] : Fin 2 → Nat) a + S64x40.size a ≤ S64x40.size a
  h_S64x40 : 0 < S64x40.numel
  inb_S10000x40_S10000x40_0_0 : ∀ a, (![0, 0] : Fin 2 → Nat) a + S10000x40.size a ≤ S10000x40.size a
  h_S10000x40 : 0 < S10000x40.numel
  bcast_S1600000x1_S1600000x40_0_1 : S1600000x1.BroadcastsInDim S1600000x40 (![0, 1] : Fin 2 → Fin S1600000x40.rank)
  bcast_S_S100000x40 : S_.BroadcastsInDim S100000x40 (![] : Fin 0 → Fin S100000x40.rank)
  bcast_S100000x1_S100000x40_0_1 : S100000x1.BroadcastsInDim S100000x40 (![0, 1] : Fin 2 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S10000x128_S128x64_S10000x64_1_0_0_1_n_n_wf : DotDims.WF S10000x128 S128x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x40_S10000x40_1_0_0_1_n_n_wf : DotDims.WF S10000x64 S64x40 S10000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x40.size a ≤ S64x40.size a
  hwx1_1 : ∀ i : grid1.Coords, EltTy.bits .f32 = 32 ∨ (Rect.block (s := S64x40) S64x40.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x40.size a ≤ S100000x40.size a
  hwx1_2 : ∀ i : grid1.Coords, EltTy.bits .f32 = 32 ∨ (Rect.block (s := S100000x40) S10000x40.size (cc1_transform_2 i) (hinb1_2 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x40_S10000x40_1_0_0_1_n_n : DotDims S10000x64 S64x40 S10000x40 where
  lhsContracting := [1]
  rhsContracting := [0]
  lhsNonContracting := [0]
  rhsNonContracting := [1]
  lhsBatch := []
  rhsBatch := []
  wf := dot_S10000x64_S64x40_S10000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v51) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x40.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v52) S10000x40.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x64 : Shape := ⟨2, ![100000, 64]⟩
abbrev S1600000x64 : Shape := ⟨2, ![1600000, 64]⟩
abbrev S100000x1 : Shape := ⟨2, ![100000, 1]⟩
abbrev S1x64 : Shape := ⟨2, ![1, 64]⟩
abbrev S100000x40 : Shape := ⟨2, ![100000, 40]⟩
abbrev S1600000x40 : Shape := ⟨2, ![1600000, 40]⟩
abbrev S1x40 : Shape := ⟨2, ![1, 40]⟩

abbrev nBuf : Space → Nat
  | .hbm => 130
  | .vmem => 0
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64x40, .f32⟩
  | 5 => ⟨S40, .f32⟩
  | 6 => ⟨S1x1600000, .i32⟩
  | 7 => ⟨S1600000, .i32⟩
  | 8 => ⟨S1x1600000, .i32⟩
  | 9 => ⟨S1600000, .i32⟩
  | 10 => ⟨S_, .f32⟩
  | 11 => ⟨S100000, .f32⟩
  | 12 => ⟨S_, .i32⟩
  | 13 => ⟨S1600000, .i32⟩
  | 14 => ⟨S1600000, .i1⟩
  | 15 => ⟨S_, .i32⟩
  | 16 => ⟨S1600000, .i32⟩
  | 17 => ⟨S1600000, .i32⟩
  | 18 => ⟨S1600000, .i32⟩
  | 19 => ⟨S1600000x1, .i32⟩
  | 20 => ⟨S_, .f32⟩
  | 21 => ⟨S1600000, .f32⟩
  | 22 => ⟨S100000, .f32⟩
  | 23 => ⟨S100000, .f32⟩
  | 24 => ⟨S100000x64, .f32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000, .f32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S1600000x1, .i32⟩
  | 42 => ⟨S1600000, .f32⟩
  | 43 => ⟨S1600000, .f32⟩
  | 44 => ⟨S_, .i32⟩
  | 45 => ⟨S1600000, .i32⟩
  | 46 => ⟨S1600000, .i1⟩
  | 47 => ⟨S_, .i32⟩
  | 48 => ⟨S1600000, .i32⟩
  | 49 => ⟨S1600000, .i32⟩
  | 50 => ⟨S1600000, .i32⟩
  | 51 => ⟨S1600000x1, .i32⟩
  | 52 => ⟨S1600000x64, .f32⟩
  | 53 => ⟨S1600000x1, .f32⟩
  | 54 => ⟨S1600000x64, .f32⟩
  | 55 => ⟨S1600000x64, .f32⟩
  | 56 => ⟨S_, .f32⟩
  | 57 => ⟨S100000x64, .f32⟩
  | 58 => ⟨S1600000x1, .i32⟩
  | 59 => ⟨S100000x64, .f32⟩
  | 60 => ⟨S100000, .f32⟩
  | 61 => ⟨S100000x1, .f32⟩
  | 62 => ⟨S100000x64, .f32⟩
  | 63 => ⟨S100000x64, .f32⟩
  | 64 => ⟨S100000x64, .f32⟩
  | 65 => ⟨S1x64, .f32⟩
  | 66 => ⟨S100000x64, .f32⟩
  | 67 => ⟨S100000x64, .f32⟩
  | 68 => ⟨S_, .f32⟩
  | 69 => ⟨S100000x64, .f32⟩
  | 70 => ⟨S100000x64, .f32⟩
  | 71 => ⟨S100000x40, .f32⟩
  | 72 => ⟨S_, .i32⟩
  | 73 => ⟨S1600000, .i32⟩
  | 74 => ⟨S1600000, .i1⟩
  | 75 => ⟨S_, .i32⟩
  | 76 => ⟨S1600000, .i32⟩
  | 77 => ⟨S1600000, .i32⟩
  | 78 => ⟨S1600000, .i32⟩
  | 79 => ⟨S1600000x1, .i32⟩
  | 80 => ⟨S1600000, .f32⟩
  | 81 => ⟨S_, .i32⟩
  | 82 => ⟨S1600000, .i32⟩
  | 83 => ⟨S1600000, .i1⟩
  | 84 => ⟨S_, .i32⟩
  | 85 => ⟨S1600000, .i32⟩
  | 86 => ⟨S1600000, .i32⟩
  | 87 => ⟨S1600000, .i32⟩
  | 88 => ⟨S1600000x1, .i32⟩
  | 89 => ⟨S1600000, .f32⟩
  | 90 => ⟨S1600000, .f32⟩
  | 91 => ⟨S_, .i32⟩
  | 92 => ⟨S1600000, .i32⟩
  | 93 => ⟨S1600000, .i1⟩
  | 94 => ⟨S_, .i32⟩
  | 95 => ⟨S1600000, .i32⟩
  | 96 => ⟨S1600000, .i32⟩
  | 97 => ⟨S1600000, .i32⟩
  | 98 => ⟨S1600000x1, .i32⟩
  | 99 => ⟨S1600000x40, .f32⟩
  | 100 => ⟨S1600000x1, .f32⟩
  | 101 => ⟨S1600000x40, .f32⟩
  | 102 => ⟨S1600000x40, .f32⟩
  | 103 => ⟨S_, .f32⟩
  | 104 => ⟨S100000x40, .f32⟩
  | 105 => ⟨S1600000x1, .i32⟩
  | 106 => ⟨S100000x40, .f32⟩
  | 107 => ⟨S100000, .f32⟩
  | 108 => ⟨S100000x1, .f32⟩
  | 109 => ⟨S100000x40, .f32⟩
  | 110 => ⟨S100000x40, .f32⟩
  | 111 => ⟨S100000x40, .f32⟩
  | 112 => ⟨S1x40, .f32⟩
  | 113 => ⟨S100000x40, .f32⟩
  | 114 => ⟨S100000x40, .f32⟩
  | 115 => ⟨S_, .f32⟩
  | 116 => ⟨S100000, .f32⟩
  | 117 => ⟨S_, .f32⟩
  | 118 => ⟨S100000, .f32⟩
  | 119 => ⟨S100000, .f32⟩
  | 120 => ⟨S100000x1, .f32⟩
  | 121 => ⟨S100000x40, .f32⟩
  | 122 => ⟨S100000x40, .f32⟩
  | 123 => ⟨S100000x40, .f32⟩
  | 124 => ⟨S_, .f32⟩
  | 125 => ⟨S100000, .f32⟩
  | 126 => ⟨S100000x1, .f32⟩
  | 127 => ⟨S100000x1, .f32⟩
  | _ => ⟨S100000x128, .f32⟩

abbrev hbmTy0_1 (i : Nat) : BufTy := match i % 128 with
  | 0 => ⟨S100000x40, .f32⟩
  | 1 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_6 : Ref sig .tc := ⟨.hbm, 44, rfl⟩
abbrev main_v30 : Ref sig .tc := ⟨.hbm, 45, rfl⟩
abbrev main_v31 : Ref sig .tc := ⟨.hbm, 46, rfl⟩
abbrev main_c_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_call0_cst : Ref sig .tc := ⟨.hbm, 68, rfl⟩
abbrev main_call0_v0 : Ref sig .tc := ⟨.hbm, 69, rfl⟩
abbrev main_v51 : Ref sig .tc := ⟨.hbm, 70, rfl⟩
abbrev main_v52 : Ref sig .tc := ⟨.hbm, 71, rfl⟩
abbrev main_c_9 : Ref sig .tc := ⟨.hbm, 72, rfl⟩
abbrev main_v53 : Ref sig .tc := ⟨.hbm, 73, rfl⟩
abbrev main_v54 : Ref sig .tc := ⟨.hbm, 74, rfl⟩
abbrev main_c_10 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_c_11 : Ref sig .tc := ⟨.hbm, 81, rfl⟩
abbrev main_v60 : Ref sig .tc := ⟨.hbm, 82, rfl⟩
abbrev main_v61 : Ref sig .tc := ⟨.hbm, 83, rfl⟩
abbrev main_c_12 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_c_13 : Ref sig .tc := ⟨.hbm, 91, rfl⟩
abbrev main_v68 : Ref sig .tc := ⟨.hbm, 92, rfl⟩
abbrev main_v69 : Ref sig .tc := ⟨.hbm, 93, rfl⟩
abbrev main_c_14 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_cst_15 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_call1_cst : Ref sig .tc := ⟨.hbm, 115, rfl⟩
abbrev main_call1_v0 : Ref sig .tc := ⟨.hbm, 116, rfl⟩
abbrev main_call1_cst_0 : Ref sig .tc := ⟨.hbm, 117, rfl⟩
abbrev main_call1_v1 : Ref sig .tc := ⟨.hbm, 118, rfl⟩
abbrev main_call1_v2 : Ref sig .tc := ⟨.hbm, 119, rfl⟩
abbrev main_call1_v3 : Ref sig .tc := ⟨.hbm, 120, rfl⟩
abbrev main_call1_v4 : Ref sig .tc := ⟨.hbm, 121, rfl⟩
abbrev main_call1_v5 : Ref sig .tc := ⟨.hbm, 122, rfl⟩
abbrev main_call1_v6 : Ref sig .tc := ⟨.hbm, 123, rfl⟩
abbrev main_call1_cst_1 : Ref sig .tc := ⟨.hbm, 124, rfl⟩
abbrev main_call1_v7 : Ref sig .tc := ⟨.hbm, 125, rfl⟩
abbrev main_call1_v8 : Ref sig .tc := ⟨.hbm, 126, rfl⟩
abbrev main_call1_v9 : Ref sig .tc := ⟨.hbm, 127, rfl⟩
abbrev main_call1_v10 : Ref sig .tc := ⟨.hbm, 128, rfl⟩
abbrev main_v89 : Ref sig .tc := ⟨.hbm, 129, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1600000x1_S1600000x40_0_1 : S1600000x1.BroadcastsInDim S1600000x40 (![0, 1] : Fin 2 → Fin S1600000x40.rank)
  bcast_S_S100000x40 : S_.BroadcastsInDim S100000x40 (![] : Fin 0 → Fin S100000x40.rank)
  bcast_S100000x1_S100000x40_0_1 : S100000x1.BroadcastsInDim S100000x40 (![0, 1] : Fin 2 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  scatter_S100000_S1600000x1_S1600000_n_0_0_1_wf : ScatterDims.WF S100000 S1600000x1 S1600000 [] [0] [0] 1
  dot_S100000x128_S128x64_S100000x64_1_0_0_1_n_n_wf : DotDims.WF S100000x128 S128x64 S100000x64 [1] [0] [0] [1] [] []
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x40_S100000x40_1_0_0_1_n_n_wf : DotDims.WF S100000x64 S64x40 S100000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

class Facts : Prop extends Facts₀ where

variable [Facts]
-- ==== Proof.LibAfterAppend.lean ====
/-
  A general fact about the fold of host operations over buffer contents: running a list of operations that is a
  concatenation is running the first part and then the second from what the first left.
-/
import Idealize.ShloMosaic.Lib.StableHlo.Run

namespace Idealize.ShloMosaic.StableHlo

variable {τ : Topo} {sig : RefSig} {Val : EltTy → Type}

/-- The contents after `l₁ ++ l₂` from `V` are the contents after `l₂` from the contents after `l₁` from `V`: by induction
    on `l₁`, each operation rewriting the buffers it writes before the rest of the list runs. -/
theorem after_append (l₁ l₂ : List (HloOp τ sig Val)) (V : Valuation τ sig Val) :
    after (l₁ ++ l₂) V = after l₂ (after l₁ V) := by
  induction l₁ generalizing V with
  | nil => rfl
  | cons op ops ih => exact ih (op.result V)

end Idealize.ShloMosaic.StableHlo
-- ==== Proof.LibTypedRef.lean ====
/-
  A general fact about typed buffer references (`StableHlo.TRef`). A typed reference carries a proof that its
  buffer's type is the value's type, and moves contents between the two by transport along that proof. Transporting
  there and back is the identity, whatever the proof is: so a value written through a typed reference and read back
  through the same one is the value, with nothing to compute about the buffer's type.
-/
import Idealize.ShloMosaic.Lib.StableHlo

namespace Idealize.ShloMosaic.StableHlo.TRef

variable {sig : RefSig} {Val : EltTy → Type} {T : BufTy}

/-- Contents put into a typed reference's buffer and taken out again are the contents: the two transports compose to a
    transport along `T.Contents Val = T.Contents Val`, which is the identity. -/
theorem ofBuf_toBuf (x : TRef sig T) (v : T.Contents Val) : x.ofBuf (x.toBuf v) = v := by
  show cast _ (cast _ v) = v
  rw [cast_cast]
  exact cast_eq _ _

end Idealize.ShloMosaic.StableHlo.TRef
-- ==== Proof.ReferenceValue.lean ====
/-
  The reference's run, stated over its stages. The reference is a straight line of 124 host operations, so every
  weakly fair execution ends with each buffer at the fold of the operations over the launch contents; what the fold
  leaves in the result buffer is the reference's staged function `val_main_v89` of the six arguments. The fold is
  read in four stretches — through the first `dot_general`; layer 1 up to relu; the second `dot_general` and layer 2;
  the log-softmax, over layer 2's output as one named value — each as a function of what the stretch reads, so that no step compares more than one
  stretch's operations with the stages they are named by.
-/
import proofs.«410232_j53257594470567_3_alg».proof.Proof.ReferenceRun
import proofs.«410232_j53257594470567_3_alg».proof.Proof.ReferenceRead
import proofs.«410232_j53257594470567_3_alg».proof.Proof.LibAfterAppend
import proofs.«410232_j53257594470567_3_alg».proof.Proof.LibTypedRef

set_option maxRecDepth 65536

noncomputable section

namespace Cert.ReferenceIdeal.Staged

open Cert.ReferenceIdeal Cert.ReferenceIdeal.Gen Cert.ReferenceIdeal.RunP Idealize.ShloMosaic Idealize.ShloMosaic.TcCoe Idealize.SL.Sem Idealize.ShloMosaic.StableHlo

variable {F : FTy → Type} [FloatOps F]

variable (U : Valuation τ sig (Elt F))

/-! ## The first stretch -/

theorem a_src : after opsA U (Proc.devRef .tc main_v1) = Cert.ReferenceIdeal.ReadP.val_main_v1 (F := F) (U (Proc.devRef .tc main_arg1)) := by
  after_results_simp <;> rfl
theorem a_dst : after opsA U (Proc.devRef .tc main_v3) = Cert.ReferenceIdeal.ReadP.val_main_v3 (F := F) (U (Proc.devRef .tc main_arg1)) := by
  after_results_simp <;> rfl
theorem a_inv_sqrt_deg : after opsA U (Proc.devRef .tc main_v13) = Cert.ReferenceIdeal.ReadP.val_main_v13 (F := F) (U (Proc.devRef .tc main_arg1)) := by
  after_results_simp <;> rfl
theorem a_product : after opsA U (Proc.devRef .tc main_v14) = Cert.ReferenceIdeal.ReadP.val_main_v14 (F := F) (U (Proc.devRef .tc main_arg0)) (U (Proc.devRef .tc main_arg2)) := by
  after_results_simp <;> rfl
theorem a_keep_arg3 : after opsA U (Proc.devRef .tc main_arg3) = U (Proc.devRef .tc main_arg3) := by
  after_results_simp <;> rfl
theorem a_keep_arg4 : after opsA U (Proc.devRef .tc main_arg4) = U (Proc.devRef .tc main_arg4) := by
  after_results_simp <;> rfl
theorem a_keep_arg5 : after opsA U (Proc.devRef .tc main_arg5) = U (Proc.devRef .tc main_arg5) := by
  after_results_simp <;> rfl

/-! ## The second stretch -/

theorem b_layer1 (x0 : (⟨S100000x128, .f32⟩ : BufTy).Contents (Elt F)) (x1 : (⟨S2x1600000, .i32⟩ : BufTy).Contents (Elt F)) (x2 : (⟨S128x64, .f32⟩ : BufTy).Contents (Elt F)) (x3 : (⟨S64, .f32⟩ : BufTy).Contents (Elt F))
    (h14 : U (Proc.devRef .tc main_v14) = Cert.ReferenceIdeal.ReadP.val_main_v14 (F := F) x0 x2)
    (h1 : U (Proc.devRef .tc main_v1) = Cert.ReferenceIdeal.ReadP.val_main_v1 (F := F) x1)
    (h3 : U (Proc.devRef .tc main_v3) = Cert.ReferenceIdeal.ReadP.val_main_v3 (F := F) x1)
    (h13 : U (Proc.devRef .tc main_v13) = Cert.ReferenceIdeal.ReadP.val_main_v13 (F := F) x1)
    (ha3 : U (Proc.devRef .tc main_arg3) = x3) :
    after opsB U (Proc.devRef .tc main_v51) = Cert.ReferenceIdeal.ReadP.val_main_v51 (F := F) x0 x1 x2 x3 := by
  after_results_simp
  rw [h14, h1, h3, h13, ha3]
  simp only [TRef.ofBuf, TRef.toBuf, cast_cast, cast_eq]
  rfl
theorem b_keep_v1 : after opsB U (Proc.devRef .tc main_v1) = U (Proc.devRef .tc main_v1) := by
  after_results_simp <;> rfl
theorem b_keep_v3 : after opsB U (Proc.devRef .tc main_v3) = U (Proc.devRef .tc main_v3) := by
  after_results_simp <;> rfl
theorem b_keep_v13 : after opsB U (Proc.devRef .tc main_v13) = U (Proc.devRef .tc main_v13) := by
  after_results_simp <;> rfl
theorem b_keep_arg4 : after opsB U (Proc.devRef .tc main_arg4) = U (Proc.devRef .tc main_arg4) := by
  after_results_simp <;> rfl
theorem b_keep_arg5 : after opsB U (Proc.devRef .tc main_arg5) = U (Proc.devRef .tc main_arg5) := by
  after_results_simp <;> rfl

/-! ## The third stretch: the second product and layer 2 -/

theorem c_layer2 (x0 : (⟨S100000x128, .f32⟩ : BufTy).Contents (Elt F)) (x1 : (⟨S2x1600000, .i32⟩ : BufTy).Contents (Elt F)) (x2 : (⟨S128x64, .f32⟩ : BufTy).Contents (Elt F)) (x3 : (⟨S64, .f32⟩ : BufTy).Contents (Elt F)) (x4 : (⟨S64x40, .f32⟩ : BufTy).Contents (Elt F)) (x5 : (⟨S40, .f32⟩ : BufTy).Contents (Elt F))
    (h51 : U (Proc.devRef .tc main_v51) = Cert.ReferenceIdeal.ReadP.val_main_v51 (F := F) x0 x1 x2 x3)
    (h1 : U (Proc.devRef .tc main_v1) = Cert.ReferenceIdeal.ReadP.val_main_v1 (F := F) x1)
    (h3 : U (Proc.devRef .tc main_v3) = Cert.ReferenceIdeal.ReadP.val_main_v3 (F := F) x1)
    (h13 : U (Proc.devRef .tc main_v13) = Cert.ReferenceIdeal.ReadP.val_main_v13 (F := F) x1)
    (ha4 : U (Proc.devRef .tc main_arg4) = x4)
    (ha5 : U (Proc.devRef .tc main_arg5) = x5) :
    after opsC U (Proc.devRef .tc main_v88) = Cert.ReferenceIdeal.ReadP.val_main_v88 (F := F) x0 x1 x2 x3 x4 x5 := by
  after_results_simp
  rw [h51, h1, h3, h13, ha4, ha5]
  rfl

/-! ## The fourth stretch: the log-softmax, over layer 2's output as one named value -/

theorem d_softmax (x0 : (⟨S100000x128, .f32⟩ : BufTy).Contents (Elt F)) (x1 : (⟨S2x1600000, .i32⟩ : BufTy).Contents (Elt F)) (x2 : (⟨S128x64, .f32⟩ : BufTy).Contents (Elt F)) (x3 : (⟨S64, .f32⟩ : BufTy).Contents (Elt F)) (x4 : (⟨S64x40, .f32⟩ : BufTy).Contents (Elt F)) (x5 : (⟨S40, .f32⟩ : BufTy).Contents (Elt F))
    (h88 : U (Proc.devRef .tc main_v88) = Cert.ReferenceIdeal.ReadP.val_main_v88 (F := F) x0 x1 x2 x3 x4 x5) :
    after opsD U (Proc.devRef .tc main_v89) = Cert.ReferenceIdeal.ReadP.val_main_v89 (F := F) x0 x1 x2 x3 x4 x5 := by
  after_results_simp
  simp only [TRef.ofBuf_toBuf]
  rw [h88]
  simp only [TRef.ofBuf, TRef.toBuf, cast_eq]
  rfl

/-! ## The whole fold, and the run -/

/-- What the fold of all 124 operations leaves in the result buffer. -/
theorem result_value (L : Valuation τ sig (Elt F)) :
    after (Cert.ReferenceIdeal.RunP.ops (F := F)) L (Proc.devRef .tc main_v89)
      = Cert.ReferenceIdeal.ReadP.val_main_v89 (F := F) (L (Proc.devRef .tc main_arg0)) (L (Proc.devRef .tc main_arg1)) (L (Proc.devRef .tc main_arg2)) (L (Proc.devRef .tc main_arg3)) (L (Proc.devRef .tc main_arg4)) (L (Proc.devRef .tc main_arg5)) := by
  rw [ops_split, after_append, after_append, after_append]
  refine d_softmax (after opsC (after opsB (after opsA L))) _ _ _ _ _ _ ?_
  exact c_layer2 (after opsB (after opsA L)) _ _ _ _ _ _
    (b_layer1 (after opsA L) _ _ _ _ (a_product L) (a_src L) (a_dst L) (a_inv_sqrt_deg L) (a_keep_arg3 L))
    ((b_keep_v1 (after opsA L)).trans (a_src L))
    ((b_keep_v3 (after opsA L)).trans (a_dst L))
    ((b_keep_v13 (after opsA L)).trans (a_inv_sqrt_deg L))
    ((b_keep_arg4 (after opsA L)).trans (a_keep_arg4 L))
    ((b_keep_arg5 (after opsA L)).trans (a_keep_arg5 L))

set_option maxRecDepth 8192 in
set_option maxHeartbeats 49600000 in
/-- On every device, from any memory with zero counters: every weakly fair execution of the reference terminates with
    the result at `val_main_v89` of the arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v89) = Cert.ReferenceIdeal.ReadP.val_main_v89 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v89).trans (result_value _),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq Cert.ReferenceIdeal.RunP.scopedRefs_eq Cert.ReferenceIdeal.RunP.scopedSems_eq defs main (fun _ => Cert.ReferenceIdeal.RunP.ops)
      Cert.ReferenceIdeal.RunP.main_eq (fun _ => Cert.ReferenceIdeal.RunP.ops_sub) m ρ)

end Cert.ReferenceIdeal.Staged

end
-- ==== Proof.HostStretches.lean ====
/-
  The host operations around the two products, stretch by stretch, as functions of the buffers a stretch is entered
  with. The program and its reference apply the same chain of operations — edge endpoints normalised into range, node
  degrees by a scatter of ones, their inverse square roots, the per-edge and per-node weights, gather / scale /
  scatter-add / self term / bias, relu, and the closing log-softmax — so each stretch's result is named by the
  reference's own stage function of the launch arguments, never opened: only what the stretch READS has to be known.
  Four stretches: before the first product (the weights that depend on the edge list alone), between the products
  (layer 1 from the first product, up to relu), after the second product (layer 2), and the closing log-softmax, which
  reads layer 2's output four times and is therefore stated over it as one named value. The
  reference computes the per-edge and per-node weights once per layer and the program once in all; the two are one term.
  Everything here holds for any float family.
-/
import proofs.«410232_j53257594470567_3_alg».proof.Proof.Gen.KernelIdeal.Frame
import proofs.«410232_j53257594470567_3_alg».proof.Proof.ReferenceRead
import proofs.«410232_j53257594470567_3_alg».proof.Proof.LibTypedRef
import Idealize.ShloMosaic.Lib.StableHlo.Run

set_option maxRecDepth 65536

noncomputable section

namespace Cert.KernelIdeal.Stretches

open Cert.KernelIdeal Cert.KernelIdeal.Gen
open Idealize.ShloMosaic Idealize.ShloMosaic.TcCoe Idealize.SL.Sem Idealize.ShloMosaic.StableHlo

variable {F : FTy → Type} [FloatOps F] (U : Valuation τ sig (Elt F))

/-! ## Before the first product: what depends on the edge list alone -/

/-- Row 0 of the edge list: the source node of each edge. -/
theorem head_src : StableHlo.after hostOps0 U (Proc.devRef .tc main_v1) = Cert.ReferenceIdeal.ReadP.val_main_v1 (F := F) (U (Proc.devRef .tc main_arg1)) := by
  after_results_simp <;> rfl
/-- Row 1 of the edge list: the destination node of each edge. -/
theorem head_dst : StableHlo.after hostOps0 U (Proc.devRef .tc main_v3) = Cert.ReferenceIdeal.ReadP.val_main_v3 (F := F) (U (Proc.devRef .tc main_arg1)) := by
  after_results_simp <;> rfl
/-- The weight of an edge: the product of the inverse square roots of its endpoints' degrees. -/
theorem head_edge_weight : StableHlo.after hostOps0 U (Proc.devRef .tc main_v28) = Cert.ReferenceIdeal.ReadP.val_main_v29 (F := F) (U (Proc.devRef .tc main_arg1)) := by
  after_results_simp <;> rfl
/-- The weight of a node's self loop: the square of the inverse square root of its degree. -/
theorem head_self_weight : StableHlo.after hostOps0 U (Proc.devRef .tc main_v29) = Cert.ReferenceIdeal.ReadP.val_main_v43 (F := F) (U (Proc.devRef .tc main_arg1)) := by
  after_results_simp <;> rfl
/-- The stretch writes none of the arguments. -/
theorem head_keep_arg0 : StableHlo.after hostOps0 U (Proc.devRef .tc main_arg0) = U (Proc.devRef .tc main_arg0) := by
  after_results_simp <;> rfl
theorem head_keep_arg2 : StableHlo.after hostOps0 U (Proc.devRef .tc main_arg2) = U (Proc.devRef .tc main_arg2) := by
  after_results_simp <;> rfl
theorem head_keep_arg3 : StableHlo.after hostOps0 U (Proc.devRef .tc main_arg3) = U (Proc.devRef .tc main_arg3) := by
  after_results_simp <;> rfl
theorem head_keep_arg4 : StableHlo.after hostOps0 U (Proc.devRef .tc main_arg4) = U (Proc.devRef .tc main_arg4) := by
  after_results_simp <;> rfl
theorem head_keep_arg5 : StableHlo.after hostOps0 U (Proc.devRef .tc main_arg5) = U (Proc.devRef .tc main_arg5) := by
  after_results_simp <;> rfl

/-! ## Between the products: layer 1 from the first product, up to relu -/

/-- Layer 1's output after relu is the reference's, given the first product and the edge weights at entry. -/
theorem mid_value (x0 : (⟨Cert.ReferenceIdeal.S100000x128, .f32⟩ : BufTy).Contents (Elt F)) (x1 : (⟨Cert.ReferenceIdeal.S2x1600000, .i32⟩ : BufTy).Contents (Elt F)) (x2 : (⟨Cert.ReferenceIdeal.S128x64, .f32⟩ : BufTy).Contents (Elt F)) (x3 : (⟨Cert.ReferenceIdeal.S64, .f32⟩ : BufTy).Contents (Elt F))
    (h30 : U (Proc.devRef .tc main_v30) = Cert.ReferenceIdeal.ReadP.val_main_v14 (F := F) x0 x2)
    (h1 : U (Proc.devRef .tc main_v1) = Cert.ReferenceIdeal.ReadP.val_main_v1 (F := F) x1)
    (h3 : U (Proc.devRef .tc main_v3) = Cert.ReferenceIdeal.ReadP.val_main_v3 (F := F) x1)
    (h28 : U (Proc.devRef .tc main_v28) = Cert.ReferenceIdeal.ReadP.val_main_v29 (F := F) x1)
    (h29 : U (Proc.devRef .tc main_v29) = Cert.ReferenceIdeal.ReadP.val_main_v43 (F := F) x1)
    (ha3 : U (Proc.devRef .tc main_arg3) = x3) :
    StableHlo.after hostOps1_1 (StableHlo.after hostOps1 U) (Proc.devRef .tc main_v51) = Cert.ReferenceIdeal.ReadP.val_main_v51 (F := F) x0 x1 x2 x3 := by
  after_results_simp
  rw [h30, h1, h3, h28, h29, ha3]
  simp only [TRef.ofBuf, TRef.toBuf, cast_cast, cast_eq]
  rfl
/-- The stretch writes neither the edge weights, nor the edge endpoints, nor the later arguments. -/
theorem mid_keep_v1 : StableHlo.after hostOps1_1 (StableHlo.after hostOps1 U) (Proc.devRef .tc main_v1) = U (Proc.devRef .tc main_v1) := by
  after_results_simp <;> rfl
theorem mid_keep_v3 : StableHlo.after hostOps1_1 (StableHlo.after hostOps1 U) (Proc.devRef .tc main_v3) = U (Proc.devRef .tc main_v3) := by
  after_results_simp <;> rfl
theorem mid_keep_v28 : StableHlo.after hostOps1_1 (StableHlo.after hostOps1 U) (Proc.devRef .tc main_v28) = U (Proc.devRef .tc main_v28) := by
  after_results_simp <;> rfl
theorem mid_keep_v29 : StableHlo.after hostOps1_1 (StableHlo.after hostOps1 U) (Proc.devRef .tc main_v29) = U (Proc.devRef .tc main_v29) := by
  after_results_simp <;> rfl
theorem mid_keep_arg4 : StableHlo.after hostOps1_1 (StableHlo.after hostOps1 U) (Proc.devRef .tc main_arg4) = U (Proc.devRef .tc main_arg4) := by
  after_results_simp <;> rfl
theorem mid_keep_arg5 : StableHlo.after hostOps1_1 (StableHlo.after hostOps1 U) (Proc.devRef .tc main_arg5) = U (Proc.devRef .tc main_arg5) := by
  after_results_simp <;> rfl

/-! ## After the second product: layer 2, then the log-softmax -/

/-- Layer 2's output before the log-softmax is the reference's, given the second product and the edge weights at
    entry (the reference computes the weights again for this layer: the same term). -/
theorem tail_layer2 (x0 : (⟨Cert.ReferenceIdeal.S100000x128, .f32⟩ : BufTy).Contents (Elt F)) (x1 : (⟨Cert.ReferenceIdeal.S2x1600000, .i32⟩ : BufTy).Contents (Elt F)) (x2 : (⟨Cert.ReferenceIdeal.S128x64, .f32⟩ : BufTy).Contents (Elt F)) (x3 : (⟨Cert.ReferenceIdeal.S64, .f32⟩ : BufTy).Contents (Elt F)) (x4 : (⟨Cert.ReferenceIdeal.S64x40, .f32⟩ : BufTy).Contents (Elt F)) (x5 : (⟨Cert.ReferenceIdeal.S40, .f32⟩ : BufTy).Contents (Elt F))
    (h52 : U (Proc.devRef .tc main_v52) = Cert.ReferenceIdeal.ReadP.val_main_v52 (F := F) x0 x1 x2 x3 x4)
    (h1 : U (Proc.devRef .tc main_v1) = Cert.ReferenceIdeal.ReadP.val_main_v1 (F := F) x1)
    (h3 : U (Proc.devRef .tc main_v3) = Cert.ReferenceIdeal.ReadP.val_main_v3 (F := F) x1)
    (h28 : U (Proc.devRef .tc main_v28) = Cert.ReferenceIdeal.ReadP.val_main_v29 (F := F) x1)
    (h29 : U (Proc.devRef .tc main_v29) = Cert.ReferenceIdeal.ReadP.val_main_v43 (F := F) x1)
    (ha5 : U (Proc.devRef .tc main_arg5) = x5) :
    StableHlo.after hostOps2 U (Proc.devRef .tc main_v72) = Cert.ReferenceIdeal.ReadP.val_main_v88 (F := F) x0 x1 x2 x3 x4 x5 := by
  after_results_simp
  rw [h52, h1, h3, h28, h29, ha5]
  rfl

/-- The log-softmax of layer 2's output, which it reads four times, as one function of it: the row maximum taken off,
    then the logarithm of the row sum of exponentials taken off. Every operation of the called function writes its
    value through a typed reference and the next reads it back through the same one. -/
theorem tail_softmax (x0 : (⟨Cert.ReferenceIdeal.S100000x128, .f32⟩ : BufTy).Contents (Elt F)) (x1 : (⟨Cert.ReferenceIdeal.S2x1600000, .i32⟩ : BufTy).Contents (Elt F)) (x2 : (⟨Cert.ReferenceIdeal.S128x64, .f32⟩ : BufTy).Contents (Elt F)) (x3 : (⟨Cert.ReferenceIdeal.S64, .f32⟩ : BufTy).Contents (Elt F)) (x4 : (⟨Cert.ReferenceIdeal.S64x40, .f32⟩ : BufTy).Contents (Elt F)) (x5 : (⟨Cert.ReferenceIdeal.S40, .f32⟩ : BufTy).Contents (Elt F))
    (h72 : U (Proc.devRef .tc main_v72) = Cert.ReferenceIdeal.ReadP.val_main_v88 (F := F) x0 x1 x2 x3 x4 x5) :
    StableHlo.after hostOps2_1 U (Proc.devRef .tc main_v73) = Cert.ReferenceIdeal.ReadP.val_main_v89 (F := F) x0 x1 x2 x3 x4 x5 := by
  after_results_simp
  simp only [TRef.ofBuf_toBuf]
  rw [h72]
  simp only [TRef.ofBuf, TRef.toBuf, cast_eq]
  rfl

end Cert.KernelIdeal.Stretches

end
-- ==== Proof.RowBlocks.lean ====
/-
  A product of matrices computed ten thousand rows at a time. For a left operand `X` of 100000 rows and a right
  operand `W`, entry `(r, n)` of `X · W` is `∑ k, X[r, k] · W[k, n]`: it reads row `r` of `X` only. So if `xb` is the
  block of rows `q · 10000 … q · 10000 + 9999` of `X`, then entry `(r', n)` of `xb · W`, accumulated into zero, is entry
  `(q · 10000 + r', n)` of `X · W` — the same finite sum over the one contracted axis, term by term, on the extended
  reals; no law of arithmetic is used beyond `0 + s = s`, so nothing needs the entries to be finite.
  Stated twice, for the two layers' sizes (128 → 64 and 64 → 40): the block product is the body's one stored value, the
  whole product the host's `dot_general`.
-/
import proofs.«410232_j53257594470567_3_alg».proof.Proof.Gen.KernelIdeal.Skeleton
import proofs.«410232_j53257594470567_3_alg».proof.Proof.Gen.ReferenceIdeal
import Idealize.ShloMosaic.PureOps.Ideal.Laws
import Idealize.ShloMosaic.Lib.ValueIdx
import Idealize.ShloMosaic.Lib.Pipeline.Value

noncomputable section

namespace Cert.RowBlocks

open Idealize.ShloMosaic Idealize.ShloMosaic.TcCoe Idealize.SL.Sem

/-! ## The operand indices of the four products, axis by axis -/

theorem kdot0_lhs_0 (j : Cert.KernelIdeal.S10000x64.Idx) (q : Cert.KernelIdeal.dot_S10000x128_S128x64_S10000x64_1_0_0_1_n_n.contr.Idx) :
    (Cert.KernelIdeal.dot_S10000x128_S128x64_S10000x64_1_0_0_1_n_n.lhsIdx j q 0).val = (j 0).val := by
  unfold DotDims.lhsIdx
  rw [dif_neg (show ¬(0 : Fin Cert.KernelIdeal.S10000x128.rank) ∈ Cert.KernelIdeal.dot_S10000x128_S128x64_S10000x64_1_0_0_1_n_n.lhsBatch by decide), dif_pos (show (0 : Fin Cert.KernelIdeal.S10000x128.rank) ∈ Cert.KernelIdeal.dot_S10000x128_S128x64_S10000x64_1_0_0_1_n_n.lhsNonContracting by decide)]
  rfl
theorem kdot0_lhs_1 (j : Cert.KernelIdeal.S10000x64.Idx) (q : Cert.KernelIdeal.dot_S10000x128_S128x64_S10000x64_1_0_0_1_n_n.contr.Idx) :
    (Cert.KernelIdeal.dot_S10000x128_S128x64_S10000x64_1_0_0_1_n_n.lhsIdx j q 1).val = (q ⟨0, by decide⟩).val :=
  Cert.KernelIdeal.dot_S10000x128_S128x64_S10000x64_1_0_0_1_n_n.lhsIdx_val_of_single rfl j q
theorem kdot0_rhs_0 (j : Cert.KernelIdeal.S10000x64.Idx) (q : Cert.KernelIdeal.dot_S10000x128_S128x64_S10000x64_1_0_0_1_n_n.contr.Idx) :
    (Cert.KernelIdeal.dot_S10000x128_S128x64_S10000x64_1_0_0_1_n_n.rhsIdx j q 0).val = (q ⟨0, by decide⟩).val :=
  Cert.KernelIdeal.dot_S10000x128_S128x64_S10000x64_1_0_0_1_n_n.rhsIdx_val_of_single rfl j q
theorem kdot0_rhs_1 (j : Cert.KernelIdeal.S10000x64.Idx) (q : Cert.KernelIdeal.dot_S10000x128_S128x64_S10000x64_1_0_0_1_n_n.contr.Idx) :
    (Cert.KernelIdeal.dot_S10000x128_S128x64_S10000x64_1_0_0_1_n_n.rhsIdx j q 1).val = (j 1).val := by
  unfold DotDims.rhsIdx
  rw [dif_neg (show ¬(1 : Fin Cert.KernelIdeal.S128x64.rank) ∈ Cert.KernelIdeal.dot_S10000x128_S128x64_S10000x64_1_0_0_1_n_n.rhsBatch by decide), dif_pos (show (1 : Fin Cert.KernelIdeal.S128x64.rank) ∈ Cert.KernelIdeal.dot_S10000x128_S128x64_S10000x64_1_0_0_1_n_n.rhsNonContracting by decide)]
  rfl

theorem rdot0_lhs_0 (j : Cert.ReferenceIdeal.S100000x64.Idx) (q : Cert.ReferenceIdeal.dot_S100000x128_S128x64_S100000x64_1_0_0_1_n_n.contr.Idx) :
    (Cert.ReferenceIdeal.dot_S100000x128_S128x64_S100000x64_1_0_0_1_n_n.lhsIdx j q 0).val = (j 0).val := by
  unfold DotDims.lhsIdx
  rw [dif_neg (show ¬(0 : Fin Cert.ReferenceIdeal.S100000x128.rank) ∈ Cert.ReferenceIdeal.dot_S100000x128_S128x64_S100000x64_1_0_0_1_n_n.lhsBatch by decide), dif_pos (show (0 : Fin Cert.ReferenceIdeal.S100000x128.rank) ∈ Cert.ReferenceIdeal.dot_S100000x128_S128x64_S100000x64_1_0_0_1_n_n.lhsNonContracting by decide)]
  rfl
theorem rdot0_lhs_1 (j : Cert.ReferenceIdeal.S100000x64.Idx) (q : Cert.ReferenceIdeal.dot_S100000x128_S128x64_S100000x64_1_0_0_1_n_n.contr.Idx) :
    (Cert.ReferenceIdeal.dot_S100000x128_S128x64_S100000x64_1_0_0_1_n_n.lhsIdx j q 1).val = (q ⟨0, by decide⟩).val :=
  Cert.ReferenceIdeal.dot_S100000x128_S128x64_S100000x64_1_0_0_1_n_n.lhsIdx_val_of_single rfl j q
theorem rdot0_rhs_0 (j : Cert.ReferenceIdeal.S100000x64.Idx) (q : Cert.ReferenceIdeal.dot_S100000x128_S128x64_S100000x64_1_0_0_1_n_n.contr.Idx) :
    (Cert.ReferenceIdeal.dot_S100000x128_S128x64_S100000x64_1_0_0_1_n_n.rhsIdx j q 0).val = (q ⟨0, by decide⟩).val :=
  Cert.ReferenceIdeal.dot_S100000x128_S128x64_S100000x64_1_0_0_1_n_n.rhsIdx_val_of_single rfl j q
theorem rdot0_rhs_1 (j : Cert.ReferenceIdeal.S100000x64.Idx) (q : Cert.ReferenceIdeal.dot_S100000x128_S128x64_S100000x64_1_0_0_1_n_n.contr.Idx) :
    (Cert.ReferenceIdeal.dot_S100000x128_S128x64_S100000x64_1_0_0_1_n_n.rhsIdx j q 1).val = (j 1).val := by
  unfold DotDims.rhsIdx
  rw [dif_neg (show ¬(1 : Fin Cert.ReferenceIdeal.S128x64.rank) ∈ Cert.ReferenceIdeal.dot_S100000x128_S128x64_S100000x64_1_0_0_1_n_n.rhsBatch by decide), dif_pos (show (1 : Fin Cert.ReferenceIdeal.S128x64.rank) ∈ Cert.ReferenceIdeal.dot_S100000x128_S128x64_S100000x64_1_0_0_1_n_n.rhsNonContracting by decide)]
  rfl

theorem kdot1_lhs_0 (j : Cert.KernelIdeal.S10000x40.Idx) (q : Cert.KernelIdeal.dot_S10000x64_S64x40_S10000x40_1_0_0_1_n_n.contr.Idx) :
    (Cert.KernelIdeal.dot_S10000x64_S64x40_S10000x40_1_0_0_1_n_n.lhsIdx j q 0).val = (j 0).val := by
  unfold DotDims.lhsIdx
  rw [dif_neg (show ¬(0 : Fin Cert.KernelIdeal.S10000x64.rank) ∈ Cert.KernelIdeal.dot_S10000x64_S64x40_S10000x40_1_0_0_1_n_n.lhsBatch by decide), dif_pos (show (0 : Fin Cert.KernelIdeal.S10000x64.rank) ∈ Cert.KernelIdeal.dot_S10000x64_S64x40_S10000x40_1_0_0_1_n_n.lhsNonContracting by decide)]
  rfl
theorem kdot1_lhs_1 (j : Cert.KernelIdeal.S10000x40.Idx) (q : Cert.KernelIdeal.dot_S10000x64_S64x40_S10000x40_1_0_0_1_n_n.contr.Idx) :
    (Cert.KernelIdeal.dot_S10000x64_S64x40_S10000x40_1_0_0_1_n_n.lhsIdx j q 1).val = (q ⟨0, by decide⟩).val :=
  Cert.KernelIdeal.dot_S10000x64_S64x40_S10000x40_1_0_0_1_n_n.lhsIdx_val_of_single rfl j q
theorem kdot1_rhs_0 (j : Cert.KernelIdeal.S10000x40.Idx) (q : Cert.KernelIdeal.dot_S10000x64_S64x40_S10000x40_1_0_0_1_n_n.contr.Idx) :
    (Cert.KernelIdeal.dot_S10000x64_S64x40_S10000x40_1_0_0_1_n_n.rhsIdx j q 0).val = (q ⟨0, by decide⟩).val :=
  Cert.KernelIdeal.dot_S10000x64_S64x40_S10000x40_1_0_0_1_n_n.rhsIdx_val_of_single rfl j q
theorem kdot1_rhs_1 (j : Cert.KernelIdeal.S10000x40.Idx) (q : Cert.KernelIdeal.dot_S10000x64_S64x40_S10000x40_1_0_0_1_n_n.contr.Idx) :
    (Cert.KernelIdeal.dot_S10000x64_S64x40_S10000x40_1_0_0_1_n_n.rhsIdx j q 1).val = (j 1).val := by
  unfold DotDims.rhsIdx
  rw [dif_neg (show ¬(1 : Fin Cert.KernelIdeal.S64x40.rank) ∈ Cert.KernelIdeal.dot_S10000x64_S64x40_S10000x40_1_0_0_1_n_n.rhsBatch by decide), dif_pos (show (1 : Fin Cert.KernelIdeal.S64x40.rank) ∈ Cert.KernelIdeal.dot_S10000x64_S64x40_S10000x40_1_0_0_1_n_n.rhsNonContracting by decide)]
  rfl

theorem rdot1_lhs_0 (j : Cert.ReferenceIdeal.S100000x40.Idx) (q : Cert.ReferenceIdeal.dot_S100000x64_S64x40_S100000x40_1_0_0_1_n_n.contr.Idx) :
    (Cert.ReferenceIdeal.dot_S100000x64_S64x40_S100000x40_1_0_0_1_n_n.lhsIdx j q 0).val = (j 0).val := by
  unfold DotDims.lhsIdx
  rw [dif_neg (show ¬(0 : Fin Cert.ReferenceIdeal.S100000x64.rank) ∈ Cert.ReferenceIdeal.dot_S100000x64_S64x40_S100000x40_1_0_0_1_n_n.lhsBatch by decide), dif_pos (show (0 : Fin Cert.ReferenceIdeal.S100000x64.rank) ∈ Cert.ReferenceIdeal.dot_S100000x64_S64x40_S100000x40_1_0_0_1_n_n.lhsNonContracting by decide)]
  rfl
theorem rdot1_lhs_1 (j : Cert.ReferenceIdeal.S100000x40.Idx) (q : Cert.ReferenceIdeal.dot_S100000x64_S64x40_S100000x40_1_0_0_1_n_n.contr.Idx) :
    (Cert.ReferenceIdeal.dot_S100000x64_S64x40_S100000x40_1_0_0_1_n_n.lhsIdx j q 1).val = (q ⟨0, by decide⟩).val :=
  Cert.ReferenceIdeal.dot_S100000x64_S64x40_S100000x40_1_0_0_1_n_n.lhsIdx_val_of_single rfl j q
theorem rdot1_rhs_0 (j : Cert.ReferenceIdeal.S100000x40.Idx) (q : Cert.ReferenceIdeal.dot_S100000x64_S64x40_S100000x40_1_0_0_1_n_n.contr.Idx) :
    (Cert.ReferenceIdeal.dot_S100000x64_S64x40_S100000x40_1_0_0_1_n_n.rhsIdx j q 0).val = (q ⟨0, by decide⟩).val :=
  Cert.ReferenceIdeal.dot_S100000x64_S64x40_S100000x40_1_0_0_1_n_n.rhsIdx_val_of_single rfl j q
theorem rdot1_rhs_1 (j : Cert.ReferenceIdeal.S100000x40.Idx) (q : Cert.ReferenceIdeal.dot_S100000x64_S64x40_S100000x40_1_0_0_1_n_n.contr.Idx) :
    (Cert.ReferenceIdeal.dot_S100000x64_S64x40_S100000x40_1_0_0_1_n_n.rhsIdx j q 1).val = (j 1).val := by
  unfold DotDims.rhsIdx
  rw [dif_neg (show ¬(1 : Fin Cert.ReferenceIdeal.S64x40.rank) ∈ Cert.ReferenceIdeal.dot_S100000x64_S64x40_S100000x40_1_0_0_1_n_n.rhsBatch by decide), dif_pos (show (1 : Fin Cert.ReferenceIdeal.S64x40.rank) ∈ Cert.ReferenceIdeal.dot_S100000x64_S64x40_S100000x40_1_0_0_1_n_n.rhsNonContracting by decide)]
  rfl

/-! ## A row block's product is the block of the whole product -/

/-- Layer 1: rows `q · 10000 …` of `X` (100000 × 128) times `W` (128 × 64), into zero, at `(r', n)` is `X · W` at `(q · 10000 + r', n)`. -/
theorem block_product0 (X : FVec Ideal Cert.ReferenceIdeal.S100000x128 .f32) (W : FVec Ideal Cert.ReferenceIdeal.S128x64 .f32)
    (xb : Vec Ideal Cert.KernelIdeal.S10000x128 .f32) (wb : Vec Ideal Cert.KernelIdeal.S128x64 .f32) (q : ℕ)
    (hx : ∀ (y : Cert.KernelIdeal.S10000x128.Idx) (I : Cert.ReferenceIdeal.S100000x128.Idx), (I 0).val = q * 10000 + (y 0).val → (I 1).val = (y 1).val → xb y = X I)
    (hw : ∀ (y : Cert.KernelIdeal.S128x64.Idx) (I : Cert.ReferenceIdeal.S128x64.Idx), (I 0).val = (y 0).val → (I 1).val = (y 1).val → wb y = W I)
    (j : Cert.KernelIdeal.S10000x64.Idx) (J : Cert.ReferenceIdeal.S100000x64.Idx) (hJ0 : (J 0).val = q * 10000 + (j 0).val) (hJ1 : (J 1).val = (j 1).val) :
    Cert.KernelIdeal.Gen.k0_pay1 (F := Ideal) xb wb j = Host.dotGeneral Cert.ReferenceIdeal.dot_S100000x128_S128x64_S100000x64_1_0_0_1_n_n none X W J := by
  unfold Cert.KernelIdeal.Gen.k0_pay1
  simp only [matmul, Host.dotGeneral]
  rw [Ideal.matmul_constant_zero_apply, Ideal.dotGeneral_apply,
    ← Equiv.sum_comp (ValueIdx.contrEquiv1 Cert.KernelIdeal.dot_S10000x128_S128x64_S10000x64_1_0_0_1_n_n 128 rfl rfl).symm,
    ← Equiv.sum_comp (ValueIdx.contrEquiv1 Cert.ReferenceIdeal.dot_S100000x128_S128x64_S100000x64_1_0_0_1_n_n 128 rfl rfl).symm]
  refine Finset.sum_congr rfl fun k _ => ?_
  have hk := ValueIdx.contrEquiv1_symm_val Cert.KernelIdeal.dot_S10000x128_S128x64_S10000x64_1_0_0_1_n_n 128 rfl rfl k
  have hk' := ValueIdx.contrEquiv1_symm_val Cert.ReferenceIdeal.dot_S100000x128_S128x64_S100000x64_1_0_0_1_n_n 128 rfl rfl k
  have el := hx (Cert.KernelIdeal.dot_S10000x128_S128x64_S10000x64_1_0_0_1_n_n.lhsIdx j ((ValueIdx.contrEquiv1 Cert.KernelIdeal.dot_S10000x128_S128x64_S10000x64_1_0_0_1_n_n 128 rfl rfl).symm k))
    (Cert.ReferenceIdeal.dot_S100000x128_S128x64_S100000x64_1_0_0_1_n_n.lhsIdx J ((ValueIdx.contrEquiv1 Cert.ReferenceIdeal.dot_S100000x128_S128x64_S100000x64_1_0_0_1_n_n 128 rfl rfl).symm k))
    (by rw [rdot0_lhs_0, kdot0_lhs_0]; exact hJ0)
    (by rw [rdot0_lhs_1, kdot0_lhs_1]; exact hk'.trans hk.symm)
  have er := hw (Cert.KernelIdeal.dot_S10000x128_S128x64_S10000x64_1_0_0_1_n_n.rhsIdx j ((ValueIdx.contrEquiv1 Cert.KernelIdeal.dot_S10000x128_S128x64_S10000x64_1_0_0_1_n_n 128 rfl rfl).symm k))
    (Cert.ReferenceIdeal.dot_S100000x128_S128x64_S100000x64_1_0_0_1_n_n.rhsIdx J ((ValueIdx.contrEquiv1 Cert.ReferenceIdeal.dot_S100000x128_S128x64_S100000x64_1_0_0_1_n_n 128 rfl rfl).symm k))
    (by rw [rdot0_rhs_0, kdot0_rhs_0]; exact hk'.trans hk.symm)
    (by rw [rdot0_rhs_1, kdot0_rhs_1]; exact hJ1)
  rw [el, er]

/-- Layer 2: rows `q · 10000 …` of `X` (100000 × 64) times `W` (64 × 40), into zero, at `(r', n)` is `X · W` at `(q · 10000 + r', n)` (the body's cast of the block to its own shape is the identity). -/
theorem block_product1 (X : FVec Ideal Cert.ReferenceIdeal.S100000x64 .f32) (W : FVec Ideal Cert.ReferenceIdeal.S64x40 .f32)
    (xb : Vec Ideal Cert.KernelIdeal.S10000x64 .f32) (wb : Vec Ideal Cert.KernelIdeal.S64x40 .f32) (q : ℕ)
    (hx : ∀ (y : Cert.KernelIdeal.S10000x64.Idx) (I : Cert.ReferenceIdeal.S100000x64.Idx), (I 0).val = q * 10000 + (y 0).val → (I 1).val = (y 1).val → xb y = X I)
    (hw : ∀ (y : Cert.KernelIdeal.S64x40.Idx) (I : Cert.ReferenceIdeal.S64x40.Idx), (I 0).val = (y 0).val → (I 1).val = (y 1).val → wb y = W I)
    (j : Cert.KernelIdeal.S10000x40.Idx) (J : Cert.ReferenceIdeal.S100000x40.Idx) (hJ0 : (J 0).val = q * 10000 + (j 0).val) (hJ1 : (J 1).val = (j 1).val) :
    Cert.KernelIdeal.Gen.k1_pay1 (F := Ideal) xb wb j = Host.dotGeneral Cert.ReferenceIdeal.dot_S100000x64_S64x40_S100000x40_1_0_0_1_n_n none X W J := by
  unfold Cert.KernelIdeal.Gen.k1_pay1
  simp only [matmul, Host.dotGeneral, shapeCast_self]
  rw [Ideal.matmul_constant_zero_apply, Ideal.dotGeneral_apply,
    ← Equiv.sum_comp (ValueIdx.contrEquiv1 Cert.KernelIdeal.dot_S10000x64_S64x40_S10000x40_1_0_0_1_n_n 64 rfl rfl).symm,
    ← Equiv.sum_comp (ValueIdx.contrEquiv1 Cert.ReferenceIdeal.dot_S100000x64_S64x40_S100000x40_1_0_0_1_n_n 64 rfl rfl).symm]
  refine Finset.sum_congr rfl fun k _ => ?_
  have hk := ValueIdx.contrEquiv1_symm_val Cert.KernelIdeal.dot_S10000x64_S64x40_S10000x40_1_0_0_1_n_n 64 rfl rfl k
  have hk' := ValueIdx.contrEquiv1_symm_val Cert.ReferenceIdeal.dot_S100000x64_S64x40_S100000x40_1_0_0_1_n_n 64 rfl rfl k
  have el := hx (Cert.KernelIdeal.dot_S10000x64_S64x40_S10000x40_1_0_0_1_n_n.lhsIdx j ((ValueIdx.contrEquiv1 Cert.KernelIdeal.dot_S10000x64_S64x40_S10000x40_1_0_0_1_n_n 64 rfl rfl).symm k))
    (Cert.ReferenceIdeal.dot_S100000x64_S64x40_S100000x40_1_0_0_1_n_n.lhsIdx J ((ValueIdx.contrEquiv1 Cert.ReferenceIdeal.dot_S100000x64_S64x40_S100000x40_1_0_0_1_n_n 64 rfl rfl).symm k))
    (by rw [rdot1_lhs_0, kdot1_lhs_0]; exact hJ0)
    (by rw [rdot1_lhs_1, kdot1_lhs_1]; exact hk'.trans hk.symm)
  have er := hw (Cert.KernelIdeal.dot_S10000x64_S64x40_S10000x40_1_0_0_1_n_n.rhsIdx j ((ValueIdx.contrEquiv1 Cert.KernelIdeal.dot_S10000x64_S64x40_S10000x40_1_0_0_1_n_n 64 rfl rfl).symm k))
    (Cert.ReferenceIdeal.dot_S100000x64_S64x40_S100000x40_1_0_0_1_n_n.rhsIdx J ((ValueIdx.contrEquiv1 Cert.ReferenceIdeal.dot_S100000x64_S64x40_S100000x40_1_0_0_1_n_n 64 rfl rfl).symm k))
    (by rw [rdot1_rhs_0, kdot1_rhs_0]; exact hk'.trans hk.symm)
    (by rw [rdot1_rhs_1, kdot1_rhs_1]; exact hJ1)
  rw [el, er]

end Cert.RowBlocks

end
-- ==== Proof.RegionProducts.lean ====
/-
  What each of the two pipelined regions leaves in its output array, as ONE function of the arrays it was entered
  with. A region's grid is ten points; point `t` stages rows `t · 10000 … t · 10000 + 9999` of the left array and the whole
  right array, stores the product of the two blocks (accumulated into zero), and writes it back to the same rows of the
  output array. Since entry `(r, n)` of a product reads row `r` of the left operand only, the block written back at
  point `t` is block `t` of the whole product (Proof/RowBlocks.lean), and the ten blocks tile the output array, so after
  the last write-back the array holds the whole product — the host's `dot_general` of the same two arrays.
  Everything is stated at a parameter `V`, the buffer contents when the region is entered, as the generated frame
  states the regions' halves.
-/
import proofs.«410232_j53257594470567_3_alg».proof.Proof.Gen.KernelIdeal.Frame
import proofs.«410232_j53257594470567_3_alg».proof.Proof.RowBlocks
import Idealize.ShloMosaic.Lib.Pipeline.Value

set_option maxRecDepth 16384

noncomputable section

namespace Cert.KernelIdeal.Regions

open Cert.KernelIdeal Cert.KernelIdeal.Gen
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Layer 1's whole product as the host computes it: `X · W` for `X` of 100000 × 128 and `W` of 128 × 64. -/
abbrev whole0 (X : FVec Ideal Cert.ReferenceIdeal.S100000x128 .f32) (W : FVec Ideal Cert.ReferenceIdeal.S128x64 .f32) :
    FVec Ideal Cert.ReferenceIdeal.S100000x64 .f32 :=
  Host.dotGeneral (F := Ideal) Cert.ReferenceIdeal.dot_S100000x128_S128x64_S100000x64_1_0_0_1_n_n none X W
/-- Layer 2's whole product as the host computes it: `X · W` for `X` of 100000 × 64 and `W` of 64 × 40. -/
abbrev whole1 (X : FVec Ideal Cert.ReferenceIdeal.S100000x64 .f32) (W : FVec Ideal Cert.ReferenceIdeal.S64x40 .f32) :
    FVec Ideal Cert.ReferenceIdeal.S100000x40 .f32 :=
  Host.dotGeneral (F := Ideal) Cert.ReferenceIdeal.dot_S100000x64_S64x40_S100000x40_1_0_0_1_n_n none X W

/-! ## Region 0: layer 1's product -/

/-- The index maps over the ten grid points, decided once: the left operand's row block moves with the output's, the
    right operand is one whole block, and the output's blocks are the ten row blocks in one column of blocks. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every row block of the output is some point's. -/
theorem idx_onto0 : ∀ q0 : Fin 10, ∃ t : Fin cfg0.N, win0_2.index t = ![q0.val, 0] :=
  (by decide +kernel : ∀ q0 : Fin 10, ∃ t : Fin grid0.N, win0_2.index t = ![q0.val, 0])

/-- What point `t` writes back is block `t` of the whole product of the two arrays as the region finds them: the body
    multiplies the point's row block of the left array by the right array, and a row of a product reads that row of
    the left operand only. -/
theorem flushed0 (c : Dev nD) (t : Fin cfg0.N) :
    (dat0 (F := Ideal) V c).flushed 2 t = ((cfg0.win 2).blk t).view.read (Elt Ideal)
      (whole0 (V c main_arg0) (V c main_arg2)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x64) hz]
  obtain ⟨e0, e1, e2, e3, e4, e5⟩ := idx_facts0 t
  funext j
  show k0_pay1 (iblk0 V c 0 t) (iblk0 V c 1 t) j
    = whole0 (V c main_arg0) (V c main_arg2) (((cfg0.win 2).blk t).view.emb j)
  refine Cert.RowBlocks.block_product0 (V c main_arg0) (V c main_arg2) (iblk0 V c 0 t) (iblk0 V c 1 t)
    (win0_2.index t (0 : Fin 2)) ?_ ?_ j (((cfg0.win 2).blk t).view.emb j) ?_ ?_
  · intro y I h0 h1
    show V c main_arg0 (((cfg0.win 0).blk t).view.emb y) = V c main_arg0 I
    refine congrArg _ (funext fun a => Fin.ext ?_)
    match a with
    | ⟨0, _⟩ => show win0_0.index t (0 : Fin 2) * 10000 + 1 * (y 0).val = (I 0).val; omega
    | ⟨1, _⟩ => show win0_0.index t (1 : Fin 2) * 128 + 1 * (y 1).val = (I 1).val; omega
  · intro y I h0 h1
    show V c main_arg2 (((cfg0.win 1).blk t).view.emb y) = V c main_arg2 I
    refine congrArg _ (funext fun a => Fin.ext ?_)
    match a with
    | ⟨0, _⟩ => show win0_1.index t (0 : Fin 2) * 128 + 1 * (y 0).val = (I 0).val; omega
    | ⟨1, _⟩ => show win0_1.index t (1 : Fin 2) * 64 + 1 * (y 1).val = (I 1).val; omega
  · show win0_2.index t (0 : Fin 2) * 10000 + 1 * (j 0).val = win0_2.index t (0 : Fin 2) * 10000 + (j 0).val; omega
  · show win0_2.index t (1 : Fin 2) * 64 + 1 * (j 1).val = (j 1).val; omega

/-- An index of the output array is in point `t`'s block iff each coordinate is in the block's range on its axis. -/
theorem mem_blk0 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v30).slice (win0_2.rect t)).set ↔ _
  rw [View.set_slice_whole, Rect.mem_set_unit]
  exact Iff.rfl

/-- The ten row blocks cover the output: row `r` is in block `r / 10000`. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := idx_onto0 ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- The output array after the region: the whole product of the two input arrays as the region found them. -/
theorem product0 (c : Dev nD) :
    (dat0 (F := Ideal) V c).arrAt 2 cfg0.N
      = whole0 (V c main_arg0) (V c main_arg2) :=
  (dat0 V c).arrAt_eq_of_cover 2 _ (fun t _ => flushed0 V c t) (fun i => cover0 i)

/-! ## Region 1: layer 2's product -/

/-- The index maps over the ten grid points, decided once: the left operand's row block moves with the output's, the
    right operand is one whole block, and the output's blocks are the ten row blocks in one column of blocks. -/
theorem idx_facts1 : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 9 :=
  (by decide +kernel : ∀ t : Fin grid1.N, _)

/-- Every row block of the output is some point's. -/
theorem idx_onto1 : ∀ q0 : Fin 10, ∃ t : Fin cfg1.N, win1_2.index t = ![q0.val, 0] :=
  (by decide +kernel : ∀ q0 : Fin 10, ∃ t : Fin grid1.N, win1_2.index t = ![q0.val, 0])

/-- What point `t` writes back is block `t` of the whole product of the two arrays as the region finds them: the body
    multiplies the point's row block of the left array by the right array, and a row of a product reads that row of
    the left operand only. -/
theorem flushed1 (c : Dev nD) (t : Fin cfg1.N) :
    (dat1 (F := Ideal) V c).flushed 2 t = ((cfg1.win 2).blk t).view.read (Elt Ideal)
      (whole1 (V c main_v51) (V c main_arg4)) := by
  show (cfg1.win 2).cut (grid1.coords t) ((dat1 V c).after 2 t) = _
  rw [after1_2]
  unfold out1_2
  rw [View.canon_unit_zero hz]
  simp only [View.ld_unit_zero (S := S10000x64) hz, View.ld_unit_zero (S := S64x40) hz]
  obtain ⟨e0, e1, e2, e3, e4, e5⟩ := idx_facts1 t
  funext j
  show k1_pay1 (iblk1 V c 0 t) (iblk1 V c 1 t) j
    = whole1 (V c main_v51) (V c main_arg4) (((cfg1.win 2).blk t).view.emb j)
  refine Cert.RowBlocks.block_product1 (V c main_v51) (V c main_arg4) (iblk1 V c 0 t) (iblk1 V c 1 t)
    (win1_2.index t (0 : Fin 2)) ?_ ?_ j (((cfg1.win 2).blk t).view.emb j) ?_ ?_
  · intro y I h0 h1
    show V c main_v51 (((cfg1.win 0).blk t).view.emb y) = V c main_v51 I
    refine congrArg _ (funext fun a => Fin.ext ?_)
    match a with
    | ⟨0, _⟩ => show win1_0.index t (0 : Fin 2) * 10000 + 1 * (y 0).val = (I 0).val; omega
    | ⟨1, _⟩ => show win1_0.index t (1 : Fin 2) * 64 + 1 * (y 1).val = (I 1).val; omega
  · intro y I h0 h1
    show V c main_arg4 (((cfg1.win 1).blk t).view.emb y) = V c main_arg4 I
    refine congrArg _ (funext fun a => Fin.ext ?_)
    match a with
    | ⟨0, _⟩ => show win1_1.index t (0 : Fin 2) * 64 + 1 * (y 0).val = (I 0).val; omega
    | ⟨1, _⟩ => show win1_1.index t (1 : Fin 2) * 40 + 1 * (y 1).val = (I 1).val; omega
  · show win1_2.index t (0 : Fin 2) * 10000 + 1 * (j 0).val = win1_2.index t (0 : Fin 2) * 10000 + (j 0).val; omega
  · show win1_2.index t (1 : Fin 2) * 40 + 1 * (j 1).val = (j 1).val; omega

/-- An index of the output array is in point `t`'s block iff each coordinate is in the block's range on its axis. -/
theorem mem_blk1 (t : Fin cfg1.N) (i : S100000x40.Idx) :
    i ∈ ((cfg1.win 2).blk t).view.set ↔ ∀ a : Fin 2, win1_2.index t a * S10000x40.size a ≤ (i a).val ∧ (i a).val < win1_2.index t a * S10000x40.size a + S10000x40.size a := by
  show i ∈ ((View.whole main_v52).slice (win1_2.rect t)).set ↔ _
  rw [View.set_slice_whole, Rect.mem_set_unit]
  exact Iff.rfl

/-- The ten row blocks cover the output: row `r` is in block `r / 10000`. -/
theorem cover1 (i : S100000x40.Idx) :
    ∃ t : Fin cfg1.N, (cfg1.win 2).flush t = true ∧ i ∈ ((cfg1.win 2).blk t).view.set := by
  have hi0 : (i 0).val < 100000 := (i 0).isLt
  have hi1 : (i 1).val < 40 := (i 1).isLt
  obtain ⟨t, ht⟩ := idx_onto1 ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 40 ≤ (i 1).val ∧ (i 1).val < win1_2.index t (1 : Fin 2) * 40 + 40; omega

/-- The output array after the region: the whole product of the two input arrays as the region found them. -/
theorem product1 (c : Dev nD) :
    (dat1 (F := Ideal) V c).arrAt 2 cfg1.N
      = whole1 (V c main_v51) (V c main_arg4) :=
  (dat1 V c).arrAt_eq_of_cover 2 _ (fun t _ => flushed1 V c t) (fun i => cover1 i)

end Cert.KernelIdeal.Regions

end
-- ==== Proof.KernelValue.lean ====
/-
  The program's result as a function of its arguments, at the ideal values: the reference's own staged function
  `val_main_v89` of the six argument arrays. The buffer contents fold through @main's seven segments; read back from
  the result buffer: the last host stretch over the second product and the edge weights; the second product (its
  region's output array, the whole `dot_general` of layer 1's output and the second weight matrix); layer 1's output
  from the middle stretch over the first product; the first product (the first region's output array); and the edge
  weights from the first stretch, which no later segment writes.
-/
import proofs.«410232_j53257594470567_3_alg».proof.Proof.HostStretches
import proofs.«410232_j53257594470567_3_alg».proof.Proof.RegionProducts

set_option maxRecDepth 65536

noncomputable section

namespace Cert.KernelIdeal.ResultValue

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## At the first region's entry and exit -/

theorem W1_src : W1 m ρ c (Proc.devRef .tc main_v1) = Cert.ReferenceIdeal.ReadP.val_main_v1 (F := Ideal) (m ((c : Thread nD τ).loc main_arg1)) :=
  Stretches.head_src (W0 m ρ c)
theorem W1_dst : W1 m ρ c (Proc.devRef .tc main_v3) = Cert.ReferenceIdeal.ReadP.val_main_v3 (F := Ideal) (m ((c : Thread nD τ).loc main_arg1)) :=
  Stretches.head_dst (W0 m ρ c)
theorem W1_edge_weight : W1 m ρ c (Proc.devRef .tc main_v28) = Cert.ReferenceIdeal.ReadP.val_main_v29 (F := Ideal) (m ((c : Thread nD τ).loc main_arg1)) :=
  Stretches.head_edge_weight (W0 m ρ c)
theorem W1_self_weight : W1 m ρ c (Proc.devRef .tc main_v29) = Cert.ReferenceIdeal.ReadP.val_main_v43 (F := Ideal) (m ((c : Thread nD τ).loc main_arg1)) :=
  Stretches.head_self_weight (W0 m ρ c)

/-- The first region's output array: `x · W1`, the reference's first `dot_general`. -/
theorem W2_product : W2 m ρ c (Proc.devRef .tc main_v30) = Cert.ReferenceIdeal.ReadP.val_main_v14 (F := Ideal) (m ((c : Thread nD τ).loc main_arg0)) (m ((c : Thread nD τ).loc main_arg2)) := by
  refine (W2_arr m ρ c 2).trans ((Regions.product0 (V1 m ρ) c).trans ?_)
  have e0 : V1 m ρ c main_arg0 = (m ((c : Thread nD τ).loc main_arg0)) := Stretches.head_keep_arg0 (W0 m ρ c)
  have e2 : V1 m ρ c main_arg2 = (m ((c : Thread nD τ).loc main_arg2)) := Stretches.head_keep_arg2 (W0 m ρ c)
  rw [e0, e2]
  rfl

/-- What the first stretch computed is still there after the first region, which writes its output array only. -/
theorem W2_src : W2 m ρ c (Proc.devRef .tc main_v1) = Cert.ReferenceIdeal.ReadP.val_main_v1 (F := Ideal) (m ((c : Thread nD τ).loc main_arg1)) :=
  (W2_of_ne m ρ c main_v1 (by decide)).trans (W1_src m ρ c)
theorem W2_dst : W2 m ρ c (Proc.devRef .tc main_v3) = Cert.ReferenceIdeal.ReadP.val_main_v3 (F := Ideal) (m ((c : Thread nD τ).loc main_arg1)) :=
  (W2_of_ne m ρ c main_v3 (by decide)).trans (W1_dst m ρ c)
theorem W2_edge_weight : W2 m ρ c (Proc.devRef .tc main_v28) = Cert.ReferenceIdeal.ReadP.val_main_v29 (F := Ideal) (m ((c : Thread nD τ).loc main_arg1)) :=
  (W2_of_ne m ρ c main_v28 (by decide)).trans (W1_edge_weight m ρ c)
theorem W2_self_weight : W2 m ρ c (Proc.devRef .tc main_v29) = Cert.ReferenceIdeal.ReadP.val_main_v43 (F := Ideal) (m ((c : Thread nD τ).loc main_arg1)) :=
  (W2_of_ne m ρ c main_v29 (by decide)).trans (W1_self_weight m ρ c)
theorem W2_arg3 : W2 m ρ c (Proc.devRef .tc main_arg3) = (m ((c : Thread nD τ).loc main_arg3)) :=
  (W2_of_ne m ρ c main_arg3 (by decide)).trans (Stretches.head_keep_arg3 (W0 m ρ c))
theorem W2_arg4 : W2 m ρ c (Proc.devRef .tc main_arg4) = (m ((c : Thread nD τ).loc main_arg4)) :=
  (W2_of_ne m ρ c main_arg4 (by decide)).trans (Stretches.head_keep_arg4 (W0 m ρ c))
theorem W2_arg5 : W2 m ρ c (Proc.devRef .tc main_arg5) = (m ((c : Thread nD τ).loc main_arg5)) :=
  (W2_of_ne m ρ c main_arg5 (by decide)).trans (Stretches.head_keep_arg5 (W0 m ρ c))

/-! ## At the second region's entry and exit -/

/-- Layer 1's output after relu, the second region's left operand. -/
theorem W4_layer1 : W4 m ρ c (Proc.devRef .tc main_v51) = Cert.ReferenceIdeal.ReadP.val_main_v51 (F := Ideal) (m ((c : Thread nD τ).loc main_arg0)) (m ((c : Thread nD τ).loc main_arg1)) (m ((c : Thread nD τ).loc main_arg2)) (m ((c : Thread nD τ).loc main_arg3)) :=
  Stretches.mid_value (W2 m ρ c) _ _ _ _ (W2_product m ρ c) (W2_src m ρ c) (W2_dst m ρ c) (W2_edge_weight m ρ c)
    (W2_self_weight m ρ c) (W2_arg3 m ρ c)

/-- The second region's output array: `h1 · W2`, the reference's second `dot_general`. -/
theorem W5_product : W5 m ρ c (Proc.devRef .tc main_v52) = Cert.ReferenceIdeal.ReadP.val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W5_arr m ρ c 2).trans ((Regions.product1 (V4 m ρ) c).trans ?_)
  have e51 : V4 m ρ c main_v51 = Cert.ReferenceIdeal.ReadP.val_main_v51 (F := Ideal) (m ((c : Thread nD τ).loc main_arg0)) (m ((c : Thread nD τ).loc main_arg1)) (m ((c : Thread nD τ).loc main_arg2)) (m ((c : Thread nD τ).loc main_arg3)) := W4_layer1 m ρ c
  have e4 : V4 m ρ c main_arg4 = (m ((c : Thread nD τ).loc main_arg4)) := (Stretches.mid_keep_arg4 (W2 m ρ c)).trans (W2_arg4 m ρ c)
  rw [e51, e4]
  rfl

theorem W5_src : W5 m ρ c (Proc.devRef .tc main_v1) = Cert.ReferenceIdeal.ReadP.val_main_v1 (F := Ideal) (m ((c : Thread nD τ).loc main_arg1)) :=
  (W5_of_ne m ρ c main_v1 (by decide)).trans ((Stretches.mid_keep_v1 (W2 m ρ c)).trans (W2_src m ρ c))
theorem W5_dst : W5 m ρ c (Proc.devRef .tc main_v3) = Cert.ReferenceIdeal.ReadP.val_main_v3 (F := Ideal) (m ((c : Thread nD τ).loc main_arg1)) :=
  (W5_of_ne m ρ c main_v3 (by decide)).trans ((Stretches.mid_keep_v3 (W2 m ρ c)).trans (W2_dst m ρ c))
theorem W5_edge_weight : W5 m ρ c (Proc.devRef .tc main_v28) = Cert.ReferenceIdeal.ReadP.val_main_v29 (F := Ideal) (m ((c : Thread nD τ).loc main_arg1)) :=
  (W5_of_ne m ρ c main_v28 (by decide)).trans ((Stretches.mid_keep_v28 (W2 m ρ c)).trans (W2_edge_weight m ρ c))
theorem W5_self_weight : W5 m ρ c (Proc.devRef .tc main_v29) = Cert.ReferenceIdeal.ReadP.val_main_v43 (F := Ideal) (m ((c : Thread nD τ).loc main_arg1)) :=
  (W5_of_ne m ρ c main_v29 (by decide)).trans ((Stretches.mid_keep_v29 (W2 m ρ c)).trans (W2_self_weight m ρ c))
theorem W5_arg5 : W5 m ρ c (Proc.devRef .tc main_arg5) = (m ((c : Thread nD τ).loc main_arg5)) :=
  (W5_of_ne m ρ c main_arg5 (by decide)).trans ((Stretches.mid_keep_arg5 (W2 m ρ c)).trans (W2_arg5 m ρ c))

/-! ## The result -/

/-- Layer 2's output before the log-softmax. -/
theorem W6_layer2 : W6 m ρ c (Proc.devRef .tc main_v72)
    = Cert.ReferenceIdeal.ReadP.val_main_v88 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  Stretches.tail_layer2 (W5 m ρ c) _ _ _ _ _ _ (W5_product m ρ c) (W5_src m ρ c) (W5_dst m ρ c) (W5_edge_weight m ρ c)
    (W5_self_weight m ρ c) (W5_arg5 m ρ c)

/-- The result buffer at the end of the fold is the reference's function of the argument arrays. -/
theorem result : W7 m ρ c (Proc.devRef .tc main_v73)
    = Cert.ReferenceIdeal.ReadP.val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  Stretches.tail_softmax (W6 m ρ c) _ _ _ _ _ _ (W6_layer2 m ρ c)

end Cert.KernelIdeal.ResultValue

end
-- ==== Proof.lean ====
/-
  A two-layer graph convolution (100000 nodes, 1600000 edges, features 128 → 64 → 40) followed by a log-softmax: the
  program computes each layer's linear map `h · W` in a pipelined region, ten thousand rows at a time, and everything
  else — the edge endpoints normalised into range, node degrees, their inverse square roots, the per-edge and per-node
  weights, gather / scale / scatter-add, self term, bias, relu, log-softmax — on the host, by the same operations, with
  the same constants, as its reference, which computes `h · W` by one host `dot_general`.
  Over the extended reals a product accumulated into zero one row block at a time IS the whole product: entry `(r, n)`
  is the one finite sum `∑ k, h[r, k] · W[k, n]` on both sides (Proof/RowBlocks.lean, Proof/RegionProducts.lean). So the
  program's result is the reference's function of the arguments (Proof/HostStretches.lean, Proof/KernelValue.lean), for
  every input, finite or not: the precondition is never opened.
  The three frames: the program's two are generated; the reference's is its run (Proof/ReferenceValue.lean) with the result dropped. The
  idealization rewrote nothing, so `preserves` is `True`.
-/
import proofs.«410232_j53257594470567_3_alg».proof.Defs
import proofs.«410232_j53257594470567_3_alg».proof.Proof.Gen.Kernel
import proofs.«410232_j53257594470567_3_alg».proof.Proof.Gen.Kernel.Frame
import proofs.«410232_j53257594470567_3_alg».proof.Proof.Gen.KernelIdeal
import proofs.«410232_j53257594470567_3_alg».proof.Proof.Gen.KernelIdeal.Frame
import proofs.«410232_j53257594470567_3_alg».proof.Proof.Gen.ReferenceIdeal
import proofs.«410232_j53257594470567_3_alg».proof.Proof.Gen.Pre_finite_inputs
import proofs.«410232_j53257594470567_3_alg».proof.Proof.ReferenceValue
import proofs.«410232_j53257594470567_3_alg».proof.Proof.KernelRun
import proofs.«410232_j53257594470567_3_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Staged.run (F := Ideal) m ρ)

/-- From memories that agree on the six arguments both programs end with the result buffer at the reference's
    function of those arguments: the program by its run and the value read off the fold, the reference by its run. -/
theorem algebraic : Cert.algebraic_KernelIdeal_ReferenceIdeal := by
  intro m ρ m' ρ' _ hagree
  refine ⟨fun c => Cert.ReferenceIdeal.ReadP.val_main_v89 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) (m ((c.tc : Thread Cert.KernelIdeal.nD Cert.KernelIdeal.τ).loc Cert.KernelIdeal.main_arg3))
    (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.ResultValue.result m ρ c), (h c).2⟩)
      (Cert.KernelIdeal.GenP.run_result (F := Ideal) m ρ)
  · refine (θ_run Cert.ReferenceIdeal.defs _ _).mono (fun _ h c => ⟨(h c).1.trans ?_, (h c).2⟩)
      (Cert.ReferenceIdeal.Staged.run (F := Ideal) m' ρ')
    rw [(hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
